-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1000 : Shape := ⟨2, ![262144, 1000]⟩
abbrev S262144 : Shape := ⟨1, ![262144]⟩
abbrev S_ : Shape := ⟨0, ![]⟩

class Facts : Prop where
  bcast_S_S262144x1000 : S_.BroadcastsInDim S262144x1000 (![] : Fin 0 → Fin S262144x1000.rank)
  reducesTo_S262144x1000_S_d0_1 : S262144x1000.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x1000 .f32) (main_arg1 : IVec S262144 32) : IVec S_ 1 :=
  let main_v0 : FVec F S262144x1000 .f32 := Host.absf main_arg0
  let main_cst : FVec F S_ .f32 := constant S_ .f32 0x7F800000#32
  let main_v1 : FVec F S262144x1000 .f32 := broadcastInDim S262144x1000 ![] bcast_S_S262144x1000 main_cst
  let main_v2 : IVec S262144x1000 1 := cmpf .olt main_v0 main_v1
  let main_c : IVec S_ 1 := constantI S_ 1 1#1
  let main_v3 : IVec S_ 1 := (fun x v => Host.reduce IntOp.andi x v reducesTo_S262144x1000_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 1000#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x1000 : Shape := ⟨2, ![262144, 1000]⟩
abbrev S262144 : Shape := ⟨1, ![262144]⟩
abbrev S262144x1 : Shape := ⟨2, ![262144, 1]⟩
abbrev S16x128 : Shape := ⟨2, ![16, 128]⟩
abbrev S1024x1000 : Shape := ⟨2, ![1024, 1000]⟩
abbrev S1024x1 : Shape := ⟨2, ![1024, 1]⟩
abbrev S8x128 : Shape := ⟨2, ![8, 128]⟩
abbrev S1x1 : Shape := ⟨2, ![1, 1]⟩
abbrev S1024 : Shape := ⟨1, ![1024]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S262144x1000, .f32⟩
  | .hbm, ⟨1, _⟩ => ⟨S262144, .i32⟩
  | .hbm, ⟨2, _⟩ => ⟨S262144x1, .i32⟩
  | .hbm, ⟨3, _⟩ => ⟨S16x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S262144x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v42 : BitVec 1 := Scalar.cmpi .eq arg1 c127_i32
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S262144_S262144x1 : S262144.ShapeCasts S262144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1000_S1024x1000_0_0 : ∀ a, (![0, 0] : Fin 2 → Nat) a + S1024x1000.size a ≤ S1024x1000.size a
  h_S1024x1000 : 0 < S1024x1000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S262144x1000.size a
  hwx0_0 : ∀ i : grid0.Coords, EltTy.bits .f32 = 32 ∨ (Rect.block (s := S262144x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S262144x1000 : Shape := ⟨2, ![262144, 1000]⟩
abbrev S262144 : Shape := ⟨1, ![262144]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S262144x1000, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x1000, .f32⟩
  | .hbm, ⟨9, _⟩ => ⟨S262144x1000, .f32⟩
  | .hbm, ⟨10, _⟩ => ⟨S262144x1000, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x1, .f32⟩
  | .hbm, ⟨15, _⟩ => ⟨S262144x1000, .f32⟩
  | .hbm, ⟨16, _⟩ => ⟨S262144x1000, .f32⟩
  | .hbm, ⟨17, _⟩ => ⟨S262144x1, .i32⟩
  | .hbm, ⟨18, _⟩ => ⟨S_, .i32⟩
  | .hbm, ⟨19, _⟩ => ⟨S262144x1, .i32⟩
  | .hbm, ⟨20, _⟩ => ⟨S262144x1, .i1⟩
  | .hbm, ⟨21, _⟩ => ⟨S_, .i32⟩
  | .hbm, ⟨22, _⟩ => ⟨S262144x1, .i32⟩
  | .hbm, ⟨23, _⟩ => ⟨S262144x1, .i32⟩
  | .hbm, ⟨24, _⟩ => ⟨S262144x1, .i32⟩
  | .hbm, ⟨25, _⟩ => ⟨S262144x1x1, .i32⟩
  | .hbm, ⟨26, _⟩ => ⟨S1, .i32⟩
  | .hbm, ⟨27, _⟩ => ⟨S_, .i32⟩
  | .hbm, ⟨28, _⟩ => ⟨S262144x1x1, .i32⟩
  | .hbm, ⟨29, _⟩ => ⟨S262144x1x1, .i1⟩
  | .hbm, ⟨30, _⟩ => ⟨S1x1x1, .i32⟩
  | .hbm, ⟨31, _⟩ => ⟨S262144x1x1, .i32⟩
  | .hbm, ⟨32, _⟩ => ⟨S262144x1x1, .i1⟩
  | .hbm, ⟨33, _⟩ => ⟨S262144x1x1, .i1⟩
  | .hbm, ⟨34, _⟩ => ⟨S_, .i1⟩
  | .hbm, ⟨35, _⟩ => ⟨S262144x1, .i1⟩
  | .hbm, ⟨36, _⟩ => ⟨S262144x1, .f32⟩
  | .hbm, ⟨37, _⟩ => ⟨S_, .f32⟩
  | .hbm, ⟨38, _⟩ => ⟨S262144x1, .f32⟩
  | .hbm, ⟨39, _⟩ => ⟨S262144x1, .f32⟩
  | .hbm, ⟨40, _⟩ => ⟨S262144, .f32⟩
  | .hbm, ⟨41, _⟩ => ⟨S262144, .f32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .f32⟩
  | .hbm, ⟨46, _⟩ => ⟨S_, .f32⟩
  | .hbm, ⟨47, _⟩ => ⟨S262144, .f32⟩
  | .hbm, ⟨48, _⟩ => ⟨S262144, .f32⟩
  | .hbm, ⟨49, _⟩ => ⟨S262144, .f32⟩
  | .hbm, ⟨50, _⟩ => ⟨S262144, .f32⟩
  | .hbm, ⟨51, _⟩ => ⟨S262144, .f32⟩
  | .hbm, ⟨52, _⟩ => ⟨S_, .f32⟩
  | .hbm, ⟨53, _⟩ => ⟨S262144, .f32⟩
  | .hbm, ⟨54, _⟩ => ⟨S262144, .f32⟩
  | .hbm, ⟨55, _⟩ => ⟨S_, .f32⟩
  | .hbm, ⟨56, _⟩ => ⟨S262144, .f32⟩
  | .hbm, ⟨57, _⟩ => ⟨S262144, .f32⟩
  | .hbm, ⟨58, _⟩ => ⟨S262144, .f32⟩
  | .hbm, ⟨59, _⟩ => ⟨S262144, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S262144x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_c : Ref sig .tc := ⟨.hbm, 42, rfl⟩
abbrev main_v5 : Ref sig .tc := ⟨.hbm, 43, rfl⟩
abbrev main_v6 : Ref sig .tc := ⟨.hbm, 44, rfl⟩
abbrev main_cst : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_v11 : Ref sig .tc := ⟨.hbm, 54, rfl⟩
abbrev main_cst_2 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_cst_3 : Ref sig .tc := ⟨.hbm, 60, rfl⟩
abbrev main_v16 : Ref sig .tc := ⟨.hbm, 61, rfl⟩
abbrev main_cst_4 : Ref sig .tc := ⟨.hbm, 62, rfl⟩
abbrev main_v17 : Ref sig .tc := ⟨.hbm, 63, rfl⟩

abbrev nD : Nat := 1
abbrev τ : Topo := Topo.v7x

variable {F : FTy → Type} [FloatOps F]

class Facts₀ : Prop where
  reducesTo_S262144x1000_S262144_d1 : S262144x1000.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x1000_0_1 : S262144x1.BroadcastsInDim S262144x1000 (![0, 1] : Fin 2 → Fin S262144x1000.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  reducesTo_S262144_S_d0 : S262144.ReducesTo [0] S_
  gather_S262144x1000_S262144x1x1_S262144x1_n_1_0_0_1_2_11_wf : GatherDims.WF S262144x1000 S262144x1x1 S262144x1 [] [1] [0] [1] [0] 2 ![1, 1]

variable [Facts₀]

def gather_S262144x1000_S262144x1x1_S262144x1_n_1_0_0_1_2_11 : GatherDims S262144x1000 S262144x1x1 S262144x1 where
  offsetDims := []
  collapsedSliceDims := [1]
  operandBatchingDims := [0]
  startIndicesBatchingDims := [0]
  startIndexMap := [1]
  indexVectorDim := 2
  sliceSizes := ![1, 1]
  wf := gather_S262144x1000_S262144x1x1_S262144x1_n_1_0_0_1_2_11_wf

class Facts : Prop extends Facts₀ where

variable [Facts]
-- ==== Proof.LibTypedOps.lean ====
/-
  A host operation of a function that @main calls is spelt over references that carry the type of the tensor value
  they hold; its function is stated at those types and moved to the buffers' own types along the type equations.
  The recorded type IS the buffer's type, so the move is the identity: the operation is the plain operation on the
  same buffers with the same function. Stated for any function (two spellings of one function, at the recorded
  types and at the buffers' own, are related by heterogeneous equality), and proved by substituting the type equations
  — nothing about the function itself is used, so nothing of it is ever unfolded.
-/
import Idealize.ShloMosaic.Lib.StableHlo

namespace Cert.Lib.TypedOps

open Idealize.ShloMosaic Idealize.ShloMosaic.StableHlo Idealize.ShloMosaic.TcCoe

variable {τ : Topo} {sig : RefSig} {Val : EltTy → Type}

/-- A constant written through a typed reference is the constant written to its buffer. -/
theorem nullary_plain {Ty : BufTy} (y : TRef sig Ty) (v : Ty.Contents Val) (v' : y.ref.ty.Contents Val) (hv : HEq v v')
    (hy' : y.ref.space ≠ .host ∧ (y.ref : DevRef τ sig).isScoped = false) :
    TRef.nullary (τ := τ) y v = StableHlo.nullary y.ref v' hy' := by
  obtain ⟨y, hy, dy, uy⟩ := y
  subst hy
  cases hv
  rfl

/-- A one-operand operation through typed references is the plain one on their buffers. -/
theorem unary_plain {Tx Ty : BufTy} (x : TRef sig Tx) (y : TRef sig Ty) (f : Tx.Contents Val → Ty.Contents Val)
    (f' : x.ref.ty.Contents Val → y.ref.ty.Contents Val) (hf : HEq f f')
    (hx' : x.ref.space ≠ .host ∧ (x.ref : DevRef τ sig).isScoped = false)
    (hy' : y.ref.space ≠ .host ∧ (y.ref : DevRef τ sig).isScoped = false) :
    TRef.unary (τ := τ) x y f = StableHlo.unary x.ref y.ref f' hx' hy' := by
  obtain ⟨x, hx, dx, ux⟩ := x
  obtain ⟨y, hy, dy, uy⟩ := y
  subst hx
  subst hy
  cases hf
  rfl

/-- A two-operand operation through typed references is the plain one on their buffers. -/
theorem binary_plain {Ta Tb Ty : BufTy} (a : TRef sig Ta) (b : TRef sig Tb) (y : TRef sig Ty)
    (f : Ta.Contents Val → Tb.Contents Val → Ty.Contents Val)
    (f' : a.ref.ty.Contents Val → b.ref.ty.Contents Val → y.ref.ty.Contents Val) (hf : HEq f f')
    (ha' : a.ref.space ≠ .host ∧ (a.ref : DevRef τ sig).isScoped = false)
    (hb' : b.ref.space ≠ .host ∧ (b.ref : DevRef τ sig).isScoped = false)
    (hy' : y.ref.space ≠ .host ∧ (y.ref : DevRef τ sig).isScoped = false) :
    TRef.binary (τ := τ) a b y f = StableHlo.binary a.ref b.ref y.ref f' ha' hb' hy' := by
  obtain ⟨a, ha, da, ua⟩ := a
  obtain ⟨b, hb, db, ub⟩ := b
  obtain ⟨y, hy, dy, uy⟩ := y
  subst ha
  subst hb
  subst hy
  cases hf
  rfl

/-- A three-operand operation through typed references is the plain one on their buffers. -/
theorem ternary_plain {Tc Ta Tb Ty : BufTy} (c : TRef sig Tc) (a : TRef sig Ta) (b : TRef sig Tb) (y : TRef sig Ty)
    (f : Tc.Contents Val → Ta.Contents Val → Tb.Contents Val → Ty.Contents Val)
    (f' : c.ref.ty.Contents Val → a.ref.ty.Contents Val → b.ref.ty.Contents Val → y.ref.ty.Contents Val) (hf : HEq f f')
    (hc' : c.ref.space ≠ .host ∧ (c.ref : DevRef τ sig).isScoped = false)
    (ha' : a.ref.space ≠ .host ∧ (a.ref : DevRef τ sig).isScoped = false)
    (hb' : b.ref.space ≠ .host ∧ (b.ref : DevRef τ sig).isScoped = false)
    (hy' : y.ref.space ≠ .host ∧ (y.ref : DevRef τ sig).isScoped = false) :
    TRef.ternary (τ := τ) c a b y f = StableHlo.ternary c.ref a.ref b.ref y.ref f' hc' ha' hb' hy' := by
  obtain ⟨c, hc, dc, uc⟩ := c
  obtain ⟨a, ha, da, ua⟩ := a
  obtain ⟨b, hb, db, ub⟩ := b
  obtain ⟨y, hy, dy, uy⟩ := y
  subst hc
  subst ha
  subst hb
  subst hy
  cases hf
  rfl

/-- A reshape through typed references is the plain one on their buffers (the two differ in proofs only). -/
theorem reshape_plain {Tx Ty : BufTy} (x : TRef sig Tx) (y : TRef sig Ty) (he : Tx.elt = Ty.elt)
    (hn : Tx.shape.ShapeCasts Ty.shape) (he' : x.ref.ty.elt = y.ref.ty.elt) (hn' : x.ref.ty.shape.ShapeCasts y.ref.ty.shape)
    (hx' : x.ref.space ≠ .host ∧ (x.ref : DevRef τ sig).isScoped = false)
    (hy' : y.ref.space ≠ .host ∧ (y.ref : DevRef τ sig).isScoped = false) :
    TRef.reshape (τ := τ) (Val := Val) x y he hn = StableHlo.reshape (Val := Val) x.ref y.ref he' hn' hx' hy' := rfl

end Cert.Lib.TypedOps
-- ==== Proof.Spec.lean ====
/-
  The mathematics both programs compute, stated once over the extended reals.

  A row of logits x : Fin 1000 → EReal with class label t has
    logpt x k  =  (x k − max x) − log Σ_j exp (x j − max x)        (the log-softmax at class k),
    rowLoss    =  −(1 − exp lp)² · (lp · w)   with lp = logpt x (class of t), w = 1/4 if t > 0 else 3/4,
  and the focal loss of the whole batch is (0 + Σ_r rowLoss (row r)) / 262144.
  The literals 1, 1/4, 3/4, 0, −∞ and 262144 are kept as the binary words both programs carry.
-/
import Idealize.ShloMosaic.PureOps.Ideal
import Idealize.ShloMosaic.PureOps.Ideal.Laws
import Idealize.ShloMosaic.Lib.ValueIdx
import Idealize.ShloMosaic.Lib.ValueIdxRank1

noncomputable section

namespace Cert.Focal

open Idealize.ShloMosaic Idealize.ShloMosaic.ValueIdx

/-- The largest entry of a row, folded from −∞. -/
def rowMax (x : Fin 1000 → EReal) : EReal :=
  (Finset.univ : Finset (Fin 1000)).fold max (Ideal.ofBits .f32 0xFF800000#32) x

/-- The normaliser of a row: log Σ_j exp (x j − max x). -/
def lse (x : Fin 1000 → EReal) : EReal :=
  Ideal.log (∑ j : Fin 1000, Ideal.exp (x j - rowMax x))

/-- The log-softmax of a row at class `k`. -/
def logpt (x : Fin 1000 → EReal) (k : Fin 1000) : EReal :=
  (x k - rowMax x) - lse x

/-- The focal term of a log-probability `lp` under the class weight `w`: −(1 − exp lp)² · (lp · w). -/
def lossOf (lp w : EReal) : EReal :=
  -((Ideal.ofBits .f32 0x3F800000#32 - Ideal.exp lp) * (Ideal.ofBits .f32 0x3F800000#32 - Ideal.exp lp)) * (lp * w)

/-- The class weight: 1/4 for a positive label, 3/4 otherwise (a signed comparison of the label word with 0). -/
def weight (t : BitVec 32) : EReal :=
  Scalar.select (IntOp.cmpi .sgt t 0#32) (Ideal.ofBits .f32 0x3E800000#32) (Ideal.ofBits .f32 0x3F400000#32)

/-- The class a label word names (labels are in range 0 … 999 under the precondition). -/
def cls (t : BitVec 32) : Fin 1000 := ⟨t.toNat % 1000, Nat.mod_lt _ (by norm_num)⟩

/-- One row's focal loss. -/
def rowLoss (x : Fin 1000 → EReal) (t : BitVec 32) : EReal :=
  lossOf (logpt x (cls t)) (weight t)

abbrev SX : Shape := ⟨2, ![262144, 1000]⟩
abbrev ST : Shape := ⟨1, ![262144]⟩
abbrev S0 : Shape := ⟨0, ![]⟩

/-- The batch's mean focal loss: (0 + Σ_r rowLoss (row r of X) (T r)) / 262144. -/
def total (X : SX.Idx → EReal) (T : ST.Idx → BitVec 32) : EReal :=
  Ideal.div (Ideal.ofBits .f32 0x00000000#32 + ∑ r : Fin 262144, rowLoss (fun j => X (ix2 r j)) (T (ix1 r)))
    (Ideal.ofBits .f32 0x48800000#32)

/-- Every entry of the logits is a real number. -/
def FiniteX (X : SX.Idx → EReal) : Prop := ∀ i, ∃ a : ℝ, X i = (a : EReal)

/-- Every label is a class number 0 … 999. -/
def LabelsInRange (T : ST.Idx → BitVec 32) : Prop := ∀ i, (T i).toNat < 1000

end Cert.Focal

end
-- ==== Proof.SpecLaws.lean ====
/-
  The laws on the extended reals that join the two programs' spellings of a row's loss.

  * A sum over the classes of "the entry where the class is the label, zero elsewhere" is the entry at the label.
  * Squaring: the reference raises 1 − pt to the power 2.0, the kernel multiplies it by itself; on the extended reals
    these agree except at −∞, and 1 − pt is never −∞ when the row's logits are real numbers.
  * 0 − a is −a.
-/
import proofs.«419402_j1743756722408_2_alg».proof.Proof.Spec

noncomputable section

namespace Cert.Focal

open Idealize.ShloMosaic Idealize.ShloMosaic.ValueIdx

/-! ### The three binary words these laws read, as extended reals -/

/-- The word 0x3F800000 denotes 1. -/
theorem ofBits_one_f32 : Ideal.ofBits .f32 0x3F800000#32 = 1 := by
  simp [Ideal.ofBits, Ideal.ieee, -EReal.coe_mul]; norm_num

/-- The word 0x40000000 denotes 2. -/
theorem ofBits_two_f32 : Ideal.ofBits .f32 0x40000000#32 = ((2 : ℝ) : EReal) := by
  simp [Ideal.ofBits, Ideal.ieee, -EReal.coe_mul]; norm_num

/-- The word 0xFF800000 denotes −∞. -/
theorem ofBits_neg_inf_f32 : Ideal.ofBits .f32 0xFF800000#32 = ⊥ := by
  simp [Ideal.ofBits, Ideal.ieee]

/-! ### Sums and maxima of real rows stay real -/

/-- A finite sum of reals, taken in the extended reals, is the real sum. -/
theorem coe_finset_sum {ι : Type*} (s : Finset ι) (g : ι → ℝ) :
    (∑ j ∈ s, ((g j : ℝ) : EReal)) = ((∑ j ∈ s, g j : ℝ) : EReal) := by
  classical
  induction s using Finset.induction_on with
  | empty => simp
  | insert a s ha ih => rw [Finset.sum_insert ha, Finset.sum_insert ha, ih, EReal.coe_add]

/-- The largest entry of a row of reals is a real: it is at least the first entry and every entry is below +∞. -/
theorem rowMax_real (x : Fin 1000 → EReal) (hx : ∀ j, ∃ a : ℝ, x j = (a : EReal)) :
    ∃ m : ℝ, rowMax x = (m : EReal) := by
  have hbot : rowMax x ≠ ⊥ := by
    apply ne_of_gt
    unfold rowMax
    rw [Finset.lt_fold_max]
    right
    refine ⟨⟨0, by norm_num⟩, Finset.mem_univ _, ?_⟩
    obtain ⟨a, ha⟩ := hx ⟨0, by norm_num⟩
    rw [ha]; exact EReal.bot_lt_coe a
  have htop : rowMax x ≠ ⊤ := by
    apply ne_of_lt
    unfold rowMax
    rw [Finset.fold_max_lt]
    refine ⟨?_, fun j _ => ?_⟩
    · rw [ofBits_neg_inf_f32]; exact bot_lt_top
    · obtain ⟨a, ha⟩ := hx j
      rw [ha]; exact EReal.coe_lt_top a
  exact ⟨(rowMax x).toReal, (EReal.coe_toReal htop hbot).symm⟩

/-- The one-hot sum picks the label's entry. -/
theorem onehot_sum (f : Fin 1000 → EReal) (t : BitVec 32) (ht : t.toNat < 1000) :
    (∑ j : Fin 1000, if BitVec.ofNat 32 j.val = t then f j else 0) = f (cls t) := by
  have key : ∀ j : Fin 1000, (BitVec.ofNat 32 j.val = t) ↔ (j = cls t) := by
    intro j
    have hj : j.val < 2 ^ 32 := by have := j.isLt; omega
    constructor
    · intro h
      apply Fin.ext
      have e : (BitVec.ofNat 32 j.val).toNat = t.toNat := by rw [h]
      rw [BitVec.toNat_ofNat, Nat.mod_eq_of_lt hj] at e
      show j.val = t.toNat % 1000
      rw [Nat.mod_eq_of_lt ht]; exact e
    · intro h
      apply BitVec.eq_of_toNat_eq
      rw [BitVec.toNat_ofNat, Nat.mod_eq_of_lt hj, h]
      show t.toNat % 1000 = t.toNat
      exact Nat.mod_eq_of_lt ht
  simp only [key]
  rw [Finset.sum_ite_eq']
  simp

/-- The power 2.0 of an extended real other than −∞ is its square. -/
theorem pow_two_of_ne_bot (e : EReal) (h : e ≠ ⊥) : Ideal.pow e (Ideal.ofBits .f32 0x40000000#32) = e * e := by
  rw [ofBits_two_f32]
  induction e using EReal.rec with
  | bot => exact absurd rfl h
  | coe r =>
    rw [Ideal.pow_coe_coe, ← EReal.coe_mul]
    congr 1
    show r ^ (2 : ℝ) = r * r
    rw [Real.rpow_two, sq]
  | top =>
    have h2 : (0 : EReal) < ((2 : ℝ) : EReal) := by exact_mod_cast (by norm_num : (0 : ℝ) < 2)
    rw [Ideal.pow_top, if_pos h2, EReal.top_mul_top]

/-- For a row of real logits, 1 − exp (logpt x k) is never −∞. -/
theorem one_sub_exp_logpt_ne_bot (x : Fin 1000 → EReal) (hx : ∀ j, ∃ a : ℝ, x j = (a : EReal)) (k : Fin 1000) :
    Ideal.ofBits .f32 0x3F800000#32 - Ideal.exp (logpt x k) ≠ ⊥ := by
  obtain ⟨m, hm⟩ := rowMax_real x hx
  choose a ha using hx
  have hterm : ∀ j, Ideal.exp (x j - rowMax x) = ((Real.exp (a j - m) : ℝ) : EReal) := by
    intro j
    rw [ha j, hm, ← EReal.coe_sub, Ideal.exp_coe]
  have hsum : (∑ j : Fin 1000, Ideal.exp (x j - rowMax x))
      = ((∑ j : Fin 1000, Real.exp (a j - m) : ℝ) : EReal) := by
    rw [Finset.sum_congr rfl (fun j _ => hterm j), coe_finset_sum]
  have hpos : 0 < ∑ j : Fin 1000, Real.exp (a j - m) :=
    Finset.sum_pos (fun j _ => Real.exp_pos _) ⟨⟨0, by norm_num⟩, Finset.mem_univ _⟩
  have hlse : lse x = ((Real.log (∑ j : Fin 1000, Real.exp (a j - m)) : ℝ) : EReal) := by
    unfold lse
    rw [hsum, Ideal.log_coe, if_neg (not_le.mpr hpos)]
  have hlp : logpt x k = ((a k - m - Real.log (∑ j : Fin 1000, Real.exp (a j - m)) : ℝ) : EReal) := by
    unfold logpt
    rw [hlse, ha k, hm, ← EReal.coe_sub, ← EReal.coe_sub]
  rw [hlp, Ideal.exp_coe, ofBits_one_f32, ← EReal.coe_one, ← EReal.coe_sub]
  exact EReal.coe_ne_bot _

/-- So the reference's spelling of the focal term (a power 2.0, a negation) is `lossOf`. -/
theorem lossOf_eq_pow (x : Fin 1000 → EReal) (hx : ∀ j, ∃ a : ℝ, x j = (a : EReal)) (k : Fin 1000) (w : EReal) :
    -(Ideal.pow (Ideal.ofBits .f32 0x3F800000#32 - Ideal.exp (logpt x k)) (Ideal.ofBits .f32 0x40000000#32)) * (logpt x k * w)
      = lossOf (logpt x k) w := by
  unfold lossOf
  rw [pow_two_of_ne_bot _ (one_sub_exp_logpt_ne_bot x hx k)]

/-- And the kernel's (zero minus the square) is `lossOf` too. -/
theorem lossOf_eq_zero_sub (lp w : EReal) :
    (Ideal.ofBits .f32 0x00000000#32 - (Ideal.ofBits .f32 0x3F800000#32 - Ideal.exp lp) * (Ideal.ofBits .f32 0x3F800000#32 - Ideal.exp lp)) * (lp * w)
      = lossOf lp w := by
  unfold lossOf
  rw [Ideal.ofBits_zero_f32, zero_sub]

end Cert.Focal

end
-- ==== Proof.RefValue.lean ====
/-
  The reference's result over the extended reals: the batch's mean focal loss.

  Row by row the reference takes the log-softmax, gathers it at the label (a label in 0 … 999 is neither wrapped nor
  replaced by the out-of-range filler), forms −(1 − pt)^2.0 · (logpt · w), sums the rows from zero and divides by 262144.
-/
import proofs.«419402_j1743756722408_2_alg».proof.Proof.RefStages
import proofs.«419402_j1743756722408_2_alg».proof.Proof.Spec
import proofs.«419402_j1743756722408_2_alg».proof.Proof.SpecLaws
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen
open Cert.ReferenceIdeal.ReadP

/-- The logits array: 262144 rows of 1000 extended reals. -/
abbrev XTy := (⟨S262144x1000, .f32⟩ : BufTy).Contents (Elt Ideal)
/-- The labels array: 262144 words. -/
abbrev TTy := (⟨S262144, .i32⟩ : BufTy).Contents (Elt Ideal)

/-- Row r of the logits. -/
abbrev rowOf (X : XTy) (r : Fin 262144) : Fin 1000 → EReal := fun j => X (ix2 r j)

/-- Dropping the class axis of the logits' shape leaves the rows' shape. -/
theorem reducesRow : S262144x1000.Reduces [1] S262144 := by decide

/-- Row index r with class k put back on the dropped axis is the index (r, k). -/
theorem lift_eq (r : Fin 262144) (k : Fin 1000) : reducesRow.lift (ix1 r) k = ix2 r k := by
  funext a
  apply Fin.ext
  match a with
  | ⟨0, _⟩ => rfl
  | ⟨1, _⟩ => rfl

/-- The row maximum the reference reduces to is the fold of max from −∞ over the row. -/
theorem rowMax_eq (X : XTy) (r : Fin 262144) :
    val_main_call0_v0 (F := Ideal) X (ix1 r) = Cert.Focal.rowMax (rowOf X r) := by
  unfold val_main_call0_v0
  have h := Host.reduce_eq_fold_single (s := S262144x1000) (t := S262144) (a := (1 : Fin 2)) (u := S_) (FloatOps.maximumf (F := Ideal) (φ := .f32)) X (val_main_call0_cst (F := Ideal)) reducesTo_S262144x1000_S262144_d1 reducesRow h_S_ (ix1 r)
  refine h.trans ?_
  have e : X ∘ reducesRow.lift (ix1 r) = rowOf X r := funext fun k => congrArg X (lift_eq r k)
  rw [e]
  rfl

/-- The maximum of −∞ and the row maximum is the row maximum: a fold of max is at least its initial value. -/
theorem v2_eq (X : XTy) (r : Fin 262144) :
    val_main_call0_v2 (F := Ideal) X (ix1 r) = Cert.Focal.rowMax (rowOf X r) := by
  rw [val_main_call0_v2_apply, val_main_call0_v1_apply, val_main_call0_cst_0_apply, rowMax_eq]
  show max (Ideal.ofBits .f32 0xFF800000#32) (Cert.Focal.rowMax (rowOf X r)) = _
  unfold Cert.Focal.rowMax
  exact max_eq_right ((Finset.le_fold_max _).mpr (Or.inl le_rfl))

/-- The shifted logit at (r, j): the entry minus its row's maximum. -/
theorem v5_eq (X : XTy) (r : Fin 262144) (j : Fin 1000) :
    val_main_call0_v5 (F := Ideal) X (ix2 r j) = X (ix2 r j) - Cert.Focal.rowMax (rowOf X r) := by
  rw [val_main_call0_v5_apply, val_main_call0_v4_apply, val_main_call0_v3_apply]
  have e : idx_main_call0_v3 (idx_main_call0_v4 (ix2 r j)) = ix1 r := by
    funext a; match a with | ⟨0, _⟩ => rfl
  rw [e, v2_eq]
  rfl

/-- The row sum of exponentials, from zero: Σ_j exp (x j − max x). -/
theorem v7_eq (X : XTy) (r : Fin 262144) :
    val_main_call0_v7 (F := Ideal) X (ix1 r) = ∑ j : Fin 1000, Ideal.exp (X (ix2 r j) - Cert.Focal.rowMax (rowOf X r)) := by
  rw [val_main_call0_v7_apply, val_main_call0_cst_1_apply]
  show Ideal.ofBits .f32 0x00000000#32 + _ = _
  rw [Ideal.ofBits_zero_f32, zero_add]
  refine Finset.sum_congr rfl fun k _ => ?_
  rw [val_main_call0_v6_apply]
  have e : idx_main_call0_v7 (ix1 r) k = ix2 r k := by
    funext a; match a with | ⟨0, _⟩ => rfl | ⟨1, _⟩ => rfl
  rw [e, v5_eq]
  rfl

/-- The log-softmax stage at (r, j). -/
theorem v0_eq (X : XTy) (r : Fin 262144) (j : Fin 1000) :
    val_main_v0 (F := Ideal) X (ix2 r j) = Cert.Focal.logpt (rowOf X r) j := by
  rw [val_main_v0_apply, val_main_call0_v10_apply, val_main_call0_v9_apply, val_main_call0_v8_apply]
  have e : idx_main_call0_v8 (idx_main_call0_v10 (ix2 r j)) = ix1 r := by
    funext a; match a with | ⟨0, _⟩ => rfl
  rw [e, v7_eq, v5_eq]
  rfl

open Idealize.ShloMosaic.StableHlo.Predicate in
/-- The wrapped start index of row r is the label itself: a label in 0 … 999 is not negative. -/
theorem idxw_eq (T : TTy) (hT : Cert.Focal.LabelsInRange T) (r : Fin 262144) :
    val_main_call1_v5 (F := Ideal) T (ix3 r 0 0) = T (ix1 r) := by
  have ht : (T (ix1 r)).toNat < 1000 := hT (ix1 r)
  rw [val_main_call1_v5_apply]
  have e5 : idx_main_call1_v5 (ix3 r (0 : Fin 1) (0 : Fin 1)) = ix2 r (0 : Fin 1) := by
    funext a; apply Fin.ext
    match a with
    | ⟨0, _⟩ => show ((r.val * 1 + 0) * 1 + 0) / 1 = r.val; omega
    | ⟨1, _⟩ => rfl
  rw [e5, val_main_call1_v4_apply, val_main_call1_v1_apply, val_main_v1_apply, val_main_call1_v0_apply, val_main_call1_c_apply]
  have e1 : idx_main_v1 (ix2 r (0 : Fin 1)) = ix1 r := by
    funext a; match a with | ⟨0, _⟩ => rfl
  rw [e1]
  have hlt : IntOp.cmpi .slt (T (ix1 r)) 0#32 = 0#1 :=
    eq_zero_of_ne_one fun h => by
      have := (slt_iff_toNat (a := T (ix1 r)) (b := 0#32) (by omega) (by decide)).mp h
      simp at this
  rw [hlt, select_zero]

/-- The gather's dimension numbers. -/
abbrev gdims : GatherDims S262144x1000 S262144x1x1 S262144x1 := gather_S262144x1000_S262144x1x1_S262144x1_n_1_0_0_1_2_11

/-- The gather along the class axis read at (r, 0): row r of the operand at the start index of row r, read signed and
    clamped into 0 … 999. -/
theorem gather_eq (x : XTy) (idx : IVec S262144x1x1 32) (r : Fin 262144) (k : Fin 1000)
    (hk : min (idx (ix3 r (0 : Fin 1) (0 : Fin 1))).toInt.toNat 999 = k.val) :
    Host.gather gdims x idx (ix2 r (0 : Fin 1)) = x (ix2 r k) := by
  unfold Host.gather
  congr 1
  funext a
  refine Fin.ext ?_
  match a with
  | ⟨0, _⟩ =>
    show gdims.start (ix2 r (0 : Fin 1)) idx 0 + gdims.batchCoord (ix2 r (0 : Fin 1)) 0 + gdims.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gdims.operandBatchingDims from List.mem_singleton.mpr rfl)]
    rfl
  | ⟨1, _⟩ =>
    show gdims.start (ix2 r (0 : Fin 1)) idx 1 + gdims.batchCoord (ix2 r (0 : Fin 1)) 1 + gdims.offCoord (ix2 r (0 : Fin 1)) 1 = k.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gdims.startIndexMap from List.mem_singleton.mpr rfl)]
    have hsi : gdims.siIdx (ix2 r (0 : Fin 1)) ⟨List.idxOf (1 : Fin 2) gdims.startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    exact hk

/-- Dropping the last (unit) axis of the range flags' shape. -/
theorem reducesFlag : S262144x1x1.Reduces [2] S262144x1 := by decide

/-- The one index over (r, 0) on the dropped unit axis is (r, 0, 0). -/
theorem lift2_eq (r : Fin 262144) (k : Fin 1) : reducesFlag.lift (ix2 r (0 : Fin 1)) k = ix3 r (0 : Fin 1) (0 : Fin 1) := by
  funext a
  apply Fin.ext
  match a with
  | ⟨0, _⟩ => rfl
  | ⟨1, _⟩ => rfl
  | ⟨2, _⟩ => show k.val = 0; omega

/-- A fold over a one-point index set is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

open Idealize.ShloMosaic.StableHlo.Predicate in
/-- A label in 0 … 999 passes the range test, so the reduced flag of row r is set. -/
theorem v12_eq (T : TTy) (hT : Cert.Focal.LabelsInRange T) (r : Fin 262144) :
    val_main_call1_v12 (F := Ideal) T (ix2 r (0 : Fin 1)) = 1#1 := by
  have ht : (T (ix1 r)).toNat < 1000 := hT (ix1 r)
  unfold val_main_call1_v12
  have h := Host.reduce_eq_fold_single (s := S262144x1x1) (t := S262144x1) (a := (2 : Fin 3)) (u := S_) (IntOp.andi (w := 1))
    (val_main_call1_v11 (F := Ideal) T) (val_main_call1_c_3 (F := Ideal)) reducesTo_S262144x1x1_S262144x1_d2 reducesFlag h_S_ (ix2 r (0 : Fin 1))
  refine h.trans ((fold_fin_one (IntOp.andi (w := 1)) _ _).trans ?_)
  show IntOp.andi (val_main_call1_v11 (F := Ideal) T (reducesFlag.lift (ix2 r (0 : Fin 1)) (0 : Fin 1))) 1#1 = 1#1
  rw [lift2_eq, val_main_call1_v11_apply, val_main_call1_v7_apply, val_main_call1_v10_apply, idxw_eq T hT r,
    val_main_call1_v6_apply, val_main_call1_c_2_apply, val_main_call1_v9_apply, val_main_call1_v8_apply, val_main_call1_c_1_apply]
  have hge : IntOp.cmpi .sge (T (ix1 r)) 0#32 = 1#1 :=
    (sge_iff_toNat (a := T (ix1 r)) (b := 0#32) (by omega) (by decide)).mpr (by simp)
  have hle : IntOp.cmpi .sle (T (ix1 r)) 999#32 = 1#1 :=
    (sle_iff_toNat (a := T (ix1 r)) (b := 999#32) (by omega) (by decide)).mpr (by
      show (T (ix1 r)).toNat ≤ 999; omega)
  rw [hge, hle]
  decide

open Idealize.ShloMosaic.StableHlo.Predicate in
/-- The gathered stage at row r: the log-softmax of row r at the label's class. -/
theorem v3_eq (X : XTy) (T : TTy) (hT : Cert.Focal.LabelsInRange T) (r : Fin 262144) :
    val_main_v3 (F := Ideal) X T (ix1 r) = Cert.Focal.logpt (rowOf X r) (Cert.Focal.cls (T (ix1 r))) := by
  have ht : (T (ix1 r)).toNat < 1000 := hT (ix1 r)
  rw [val_main_v3_apply]
  have e : idx_main_v3 (ix1 r) = ix2 r (0 : Fin 1) := by
    funext a; apply Fin.ext
    match a with
    | ⟨0, _⟩ => show r.val / 1 = r.val; omega
    | ⟨1, _⟩ => rfl
  rw [e, val_main_v2_apply, v12_eq T hT r, select_one]
  unfold val_main_call1_v13
  have ec : min (val_main_call1_v5 (F := Ideal) T (ix3 r (0 : Fin 1) (0 : Fin 1))).toInt.toNat 999 = (Cert.Focal.cls (T (ix1 r))).val := by
    show _ = (T (ix1 r)).toNat % 1000
    rw [idxw_eq T hT r, toInt_eq_toNat_of_lt (by omega), Int.toNat_natCast]
    omega
  rw [gather_eq _ _ r _ ec, v0_eq]

/-- The per-row loss stage at row r. -/
theorem v15_eq (X : XTy) (T : TTy) (hX : Cert.Focal.FiniteX X) (hT : Cert.Focal.LabelsInRange T) (r : Fin 262144) :
    val_main_v15 (F := Ideal) X T (ix1 r) = Cert.Focal.rowLoss (rowOf X r) (T (ix1 r)) := by
  rw [val_main_v15_apply, val_main_v14_apply, val_main_v13_apply, val_main_v11_apply, val_main_v10_apply,
    val_main_cst_1_apply, val_main_v12_apply, val_main_cst_2_apply, val_main_v4_apply, val_main_v9_apply,
    val_main_v8_apply, val_main_v7_apply, val_main_v6_apply, val_main_v5_apply, val_main_c_apply,
    val_main_call2_v0_apply, val_main_call2_v1_apply, val_main_cst_apply, val_main_cst_0_apply, v3_eq X T hT r]
  exact Cert.Focal.lossOf_eq_pow (rowOf X r) (fun j => hX (ix2 r j)) (Cert.Focal.cls (T (ix1 r))) (Cert.Focal.weight (T (ix1 r)))

/-- The reference's last stage is the mean focal loss of the batch, when the logits are real numbers and the labels class
    numbers. -/
theorem result_eq (X : (⟨S262144x1000, .f32⟩ : BufTy).Contents (Elt Ideal)) (T : (⟨S262144, .i32⟩ : BufTy).Contents (Elt Ideal))
    (hX : Cert.Focal.FiniteX X) (hT : Cert.Focal.LabelsInRange T) :
    Cert.ReferenceIdeal.ReadP.val_main_v17 (F := Ideal) X T = fun _ => Cert.Focal.total X T := by
  funext i
  rw [val_main_v17_apply, val_main_v16_apply, val_main_cst_3_apply, val_main_cst_4_apply]
  unfold Cert.Focal.total
  have hs : ∑ j : S262144.Idx, val_main_v15 (F := Ideal) X T j
      = ∑ r : Fin 262144, Cert.Focal.rowLoss (fun j => X (ix2 r j)) (T (ix1 r)) := by
    rw [← Equiv.sum_comp (idxEquiv1 (n := 262144)).symm]
    exact Finset.sum_congr rfl fun r _ => v15_eq X T hX hT r
  rw [hs]
  rfl

end Cert.ReferenceIdeal.RefValue

end
-- ==== Proof.KPieces.lean ====
/-
  What each control case of the kernel body leaves behind, as pure terms of the blocks it loaded.

  The body keeps a 1×1 accumulator. At a core's first step (case A) it stores zero, reads it back and stores
  zero-plus-this-block's-sum; at the other steps (cases B and C) it stores previous-plus-this-block's-sum; at a core's
  last step (case C) it also fills the 8×128 output block from the accumulator it has just written.
-/
import proofs.«419402_j1743756722408_2_alg».proof.Proof.Gen.KernelIdeal.Frame
import Idealize.ShloMosaic.Lib.Pipeline.Value
import Idealize.ShloMosaic.Lib.Tactic

noncomputable section

namespace Cert.KernelIdeal.KV

open Idealize.ShloMosaic Idealize.ShloMosaic.TcCoe Idealize.SL.Sem
open Cert.KernelIdeal Cert.KernelIdeal.Gen

variable {F : FTy → Type} [FloatOps F]

/-- Case A (a core's first step): the accumulator ends at the block's sum added to the zero just stored. -/
theorem sout_A (c : Dev nD) (i : grid0.Coords) (arg2 : Memref sig .tc .vmem S1024x1000 .f32) (harg2 : arg2.IsWhole)
    (arg3 : Memref sig .tc .vmem S1024x1 .i32) (harg3 : arg3.IsWhole) (arg4 : Memref sig .tc .vmem S8x128 .f32) (harg4 : arg4.IsWhole)
    (arg5 : Memref sig .tc .vmem S1x1 .f32) (harg5 : arg5.IsWhole) (hc0 : cond0_0 i) (hc1 : ¬cond0_1 i)
    (x0 : Vec F S1024x1000 .f32) (x1 : Vec F S1024x1 .i32) :
    sout0_A_0 c i arg2 harg2 arg3 harg3 arg4 harg4 arg5 harg5 hc0 hc1 x0 x1 = k0_pay1 (k0_pay4 x0 x1 (k0_pay3 (F := F))) := by
  -- the origin offset of a whole-block window
  have hz : (![0, 0] : Fin 2 → Nat) = fun _ => 0 := funext fun a => by fin_cases a <;> rfl
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  -- two whole-block stores, the later one wins; the value it read back is the payload of the earlier one
  rw [View.canon_cons_unit_zero (S := S1x1) hz, View.readCov_unit_zero (S := S1x1) _ hz]
  -- whole-block loads of the two inputs read their contents
  simp only [View.readAt_eq_ld, harg2.read_unread, harg3.read_unread, View.ld_unit_zero (S := S1024x1000) hz,
    View.ld_unit_zero (S := S1024x1) hz]

/-- Case B (a middle step): the accumulator ends at the block's sum added to what the step before left. -/
theorem sout_B (c : Dev nD) (i : grid0.Coords) (arg2 : Memref sig .tc .vmem S1024x1000 .f32) (harg2 : arg2.IsWhole)
    (arg3 : Memref sig .tc .vmem S1024x1 .i32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : ¬cond0_1 i)
    (x0 : Vec F S1024x1000 .f32) (x1 : Vec F S1024x1 .i32) (xs0 : Vec F S1x1 .f32) :
    sout0_B_0 c i arg2 harg2 arg3 harg3 arg4 harg4 arg5 harg5 hc0 hc1 x0 x1 xs0 = k0_pay1 (k0_pay4 x0 x1 xs0) := by
  have hz : (![0, 0] : Fin 2 → Nat) = fun _ => 0 := funext fun a => by fin_cases a <;> rfl
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  -- one whole-block store leaves its payload; its three whole-block loads read the contents
  rw [View.canon_unit_zero (S := S1x1) hz]
  simp only [View.readAt_eq_ld, harg2.read_unread, harg3.read_unread, harg5.read_unread,
    View.ld_unit_zero (S := S1024x1000) hz, View.ld_unit_zero (S := S1024x1) hz, View.ld_unit_zero (S := S1x1) hz]

/-- Case C (a core's last step): the accumulator as in case B, -/
theorem sout_C (c : Dev nD) (i : grid0.Coords) (arg2 : Memref sig .tc .vmem S1024x1000 .f32) (harg2 : arg2.IsWhole)
    (arg3 : Memref sig .tc .vmem S1024x1 .i32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S1024x1000 .f32) (x1 : Vec F S1024x1 .i32) (xs0 : Vec F S1x1 .f32) :
    sout0_C_0 c i arg2 harg2 arg3 harg3 arg4 harg4 arg5 harg5 hc0 hc1 x0 x1 xs0 = k0_pay1 (k0_pay4 x0 x1 xs0) := by
  have hz : (![0, 0] : Fin 2 → Nat) = fun _ => 0 := funext fun a => by fin_cases a <;> rfl
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  -- one whole-block store leaves its payload; its three whole-block loads read the contents
  rw [View.canon_unit_zero (S := S1x1) hz]
  simp only [View.readAt_eq_ld, harg2.read_unread, harg3.read_unread, harg5.read_unread,
    View.ld_unit_zero (S := S1024x1000) hz, View.ld_unit_zero (S := S1024x1) hz, View.ld_unit_zero (S := S1x1) hz]

/-- and the output block filled from that accumulator. -/
theorem out_C (c : Dev nD) (i : grid0.Coords) (arg2 : Memref sig .tc .vmem S1024x1000 .f32) (harg2 : arg2.IsWhole)
    (arg3 : Memref sig .tc .vmem S1024x1 .i32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S1024x1000 .f32) (x1 : Vec F S1024x1 .i32) (xs0 : Vec F S1x1 .f32) :
    out0_C_2 c i arg2 harg2 arg3 harg3 arg4 harg4 arg5 harg5 hc0 hc1 x0 x1 xs0 = k0_pay2 (k0_pay1 (k0_pay4 x0 x1 xs0)) := by
  have hz : (![0, 0] : Fin 2 → Nat) = fun _ => 0 := funext fun a => by fin_cases a <;> rfl
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  -- one whole-block store of the output; the accumulator it loads is the payload just stored there
  rw [View.canon_unit_zero (S := S8x128) hz]
  simp only [View.readAt_eq_ld, harg2.read_unread, harg3.read_unread, harg5.read_unread,
    View.readCov_unit_zero (S := S1x1) _ hz,
    View.ld_unit_zero (S := S1024x1000) hz, View.ld_unit_zero (S := S1024x1) hz, View.ld_unit_zero (S := S1x1) hz]

end Cert.KernelIdeal.KV

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.KPayload.lean ====
/-
  The body's arithmetic read at an entry, over the extended reals.

  The accumulator update is  previous + Σ_{r < 1024} rowLoss (row r of the block) (label r);
  the output block is the accumulator at its corner (0, 0) and zero elsewhere.
-/
import proofs.«419402_j1743756722408_2_alg».proof.Proof.Gen.KernelIdeal.Skeleton
import proofs.«419402_j1743756722408_2_alg».proof.Proof.Spec
import proofs.«419402_j1743756722408_2_alg».proof.Proof.SpecLaws
import proofs.«419402_j1743756722408_2_alg».proof.Proof.LibColumns
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.KernelIdeal.KV

open Idealize.ShloMosaic Idealize.ShloMosaic.ValueIdx
open Cert.KernelIdeal Cert.KernelIdeal.Gen

/-! ## Words and indices -/

/-- A comparison for equality, selected on, is the `if` on the equation. -/
theorem select_cmpi_eq {α : Type} {w : Nat} (a b : BitVec w) (x y : α) :
    Scalar.select (IntOp.cmpi .eq a b) x y = if a = b then x else y := by
  unfold Scalar.select
  by_cases h : a = b
  · rw [if_pos h]; exact if_pos (StableHlo.Predicate.cmpi_eq_iff.mpr h)
  · rw [if_neg h]; exact if_neg (fun h' => h (StableHlo.Predicate.cmpi_eq_iff.mp h'))

/-- A small number's word is the zero word only for the number zero. -/
theorem ofNat_eq_zero_iff (n : ℕ) (hn : n < 2 ^ 32) : BitVec.ofNat 32 n = 0#32 ↔ n = 0 := by
  constructor
  · intro h
    have := congrArg BitVec.toNat h
    simp only [BitVec.toNat_ofNat] at this
    omega
  · rintro rfl; rfl

/-- The comparison of a small number's word with zero, when the number is not zero. -/
theorem cmpi_ofNat_zero_of_ne (n : ℕ) (hn : n < 2 ^ 32) (h0 : n ≠ 0) : IntOp.cmpi .eq (BitVec.ofNat 32 n) 0#32 = 0#1 :=
  eq_zero_of_ne_one fun h => h0 ((ofNat_eq_zero_iff n hn).mp (StableHlo.Predicate.cmpi_eq_iff.mp h))

/-- The source index of a row reduction: result row `r`, column `k` inserted. -/
theorem lift_row (h : S1024x1000.Reduces [1] S1024) (r : Fin 1024) (k : Fin 1000) : h.lift (ix1 r) k = ix2 r k := by
  funext c
  match c with
  | ⟨0, _⟩ => exact Fin.ext rfl
  | ⟨1, _⟩ => exact Fin.ext rfl

/-- The source index of the column reduction: result column `u`, row `r` inserted. -/
theorem lift_col (h : S1024x1.Reduces [0] S1) (u : Fin 1) (r : Fin 1024) : h.lift (ix1 u) r = ix2 r u := by
  funext c
  match c with
  | ⟨0, _⟩ => exact Fin.ext rfl
  | ⟨1, _⟩ => exact Fin.ext rfl

/-! ## The three small payloads -/

/-- The value stored back into the accumulator is the value computed (a cast between equal shapes). -/
theorem pay1_eq {F : FTy → Type} [FloatOps F] (v : FVec F S1x1 .f32) : k0_pay1 v = v := by
  unfold k0_pay1
  exact shapeCast_self v _

/-- The reset stores zero. -/
theorem pay3_apply (y : S1x1.Idx) : k0_pay3 (F := Ideal) y = 0 := by
  unfold k0_pay3
  rw [shapeCast_self]
  exact Ideal.ofBits_zero_f32

/-- The output block: the accumulator at the corner, zero elsewhere. -/
theorem pay2_apply (v : Vec Ideal S1x1 .f32) (p : Fin 8) (q : Fin 128) :
    k0_pay2 (F := Ideal) v (ix2 p q) = if p.val = 0 ∧ q.val = 0 then v (ix2 (0 : Fin 1) (0 : Fin 1)) else 0 := by
  unfold k0_pay2
  rw [shapeCast_self]
  show Scalar.select (IntOp.andi (IntOp.cmpi .eq (iota .tc S8x128 32 [0] iota_S8x128_d0_w32 (ix2 p q)) 0#32)
        (IntOp.cmpi .eq (iota .tc S8x128 32 [1] iota_S8x128_d1_w32 (ix2 p q)) 0#32))
      (broadcastTo S8x128 v broadcasts_S1x1_S8x128 (ix2 p q)) (Ideal.ofBits .f32 0#32) = _
  rw [iota_single_apply, iota_single_apply, Ideal.ofBits_zero_f32]
  have hb : broadcastTo S8x128 v broadcasts_S1x1_S8x128 (ix2 p q) = v (ix2 (0 : Fin 1) (0 : Fin 1)) :=
    broadcastTo_apply v _ (ix2 p q) (ix2 0 0) fun ax => by
      match ax with
      | ⟨0, _⟩ => rfl
      | ⟨1, _⟩ => rfl
  rw [hb]
  show Scalar.select (IntOp.andi (IntOp.cmpi .eq (BitVec.ofNat 32 p.val) 0#32) (IntOp.cmpi .eq (BitVec.ofNat 32 q.val) 0#32)) _ _ = _
  by_cases hp : p.val = 0
  · by_cases hq : q.val = 0
    · rw [if_pos ⟨hp, hq⟩, hp, hq]
      rfl
    · rw [if_neg (fun h => hq h.2), cmpi_ofNat_zero_of_ne q.val (by have := q.isLt; omega) hq, hp]
      rfl
  · rw [if_neg (fun h => hp h.1), cmpi_ofNat_zero_of_ne p.val (by have := p.isLt; omega) hp]
    have e : IntOp.andi 0#1 (IntOp.cmpi .eq (BitVec.ofNat 32 q.val) 0#32) = 0#1 := by
      unfold IntOp.andi
      exact BitVec.zero_and
    rw [e]
    rfl

/-! ## The accumulator update

The payload, stage by stage, as named columns and blocks; each is then read at an entry. -/

/-- The row maxima as a column. -/
def rowMaxV (x0 : Vec Ideal S1024x1000 .f32) : FVec Ideal S1024x1 .f32 :=
  shapeCast S1024x1 (multiReduction .maximumf [1] S1024 x0 0xFF800000#32 reduces_S1024x1000_S1024 (.inl rfl) rfl) shapeCasts_S1024_S1024x1

/-- Every row less its maximum. -/
def shiftedV (x0 : Vec Ideal S1024x1000 .f32) : FVec Ideal S1024x1000 .f32 :=
  subf x0 (broadcastTo S1024x1000 (rowMaxV x0) broadcasts_S1024x1_S1024x1000)

/-- The rows' normalisers as a column. -/
def lseV (x0 : Vec Ideal S1024x1000 .f32) : FVec Ideal S1024x1 .f32 :=
  log (shapeCast S1024x1 (multiReduction .add [1] S1024 (exp (shiftedV x0)) 0x00000000#32 reduces_S1024x1000_S1024 (.inl rfl) rfl) shapeCasts_S1024_S1024x1)

/-- The labels' entries of the shifted rows as a column: the one-hot sum. -/
def pickV (x0 : Vec Ideal S1024x1000 .f32) (x1 : Vec Ideal S1024x1 .i32) : FVec Ideal S1024x1 .f32 :=
  shapeCast S1024x1 (multiReduction .add [1] S1024
    (select (cmpi .eq (iota .tc S1024x1000 32 [1] iota_S1024x1000_d1_w32)
        (broadcastTo S1024x1000 (shapeCast S1024x1 x1 shapeCasts_S1024x1_S1024x1) broadcasts_S1024x1_S1024x1000))
      (shiftedV x0) (broadcast S1024x1000 (Scalar.ofBits .f32 0x00000000#32)))
    0x00000000#32 reduces_S1024x1000_S1024 (.inl rfl) rfl) shapeCasts_S1024_S1024x1

/-- The rows' log-probabilities of their labels. -/
def logptV (x0 : Vec Ideal S1024x1000 .f32) (x1 : Vec Ideal S1024x1 .i32) : FVec Ideal S1024x1 .f32 :=
  subf (pickV x0 x1) (lseV x0)

/-- The rows' focal losses as a column. -/
def lossV (x0 : Vec Ideal S1024x1000 .f32) (x1 : Vec Ideal S1024x1 .i32) : FVec Ideal S1024x1 .f32 :=
  mulf
    (subf (broadcast S1024x1 (Scalar.ofBits .f32 0x00000000#32))
      (mulf (subf (broadcast S1024x1 (Scalar.ofBits .f32 0x3F800000#32)) (exp (logptV x0 x1)))
        (subf (broadcast S1024x1 (Scalar.ofBits .f32 0x3F800000#32)) (exp (logptV x0 x1)))))
    (mulf (logptV x0 x1)
      (select (cmpi .sgt (shapeCast S1024x1 x1 shapeCasts_S1024x1_S1024x1) (broadcast S1024x1 0#32))
        (broadcast S1024x1 (Scalar.ofBits .f32 0x3E800000#32)) (broadcast S1024x1 (Scalar.ofBits .f32 0x3F400000#32))))

/-- The payload is the previous value plus the column's sum. -/
theorem pay4_eq (x0 : Vec Ideal S1024x1000 .f32) (x1 : Vec Ideal S1024x1 .i32) (v37 : Vec Ideal S1x1 .f32) :
    k0_pay4 (F := Ideal) x0 x1 v37
      = addf v37 (shapeCast S1x1 (multiReduction .add [0] S1 (lossV x0 x1) 0x00000000#32 reduces_S1024x1_S1 (.inl rfl) rfl)
          shapeCasts_S1_S1x1) := rfl

/-- A row's entry of the maxima column is the row's maximum, folded from −∞. -/
theorem rowMaxV_apply (x0 : Vec Ideal S1024x1000 .f32) (r : Fin 1024) (u : Fin 1) :
    rowMaxV x0 (ix2 r u) = Cert.Focal.rowMax (fun j => x0 (ix2 r j)) := by
  unfold rowMaxV
  refine (Cert.Lib.Columns.shapeCast_a_a1_apply _ _ r u).trans ?_
  refine (Ideal.multiReduction_maximumf_single x0 _ _ _ _ (ix1 r)).trans ?_
  unfold Cert.Focal.rowMax
  have hl : (x0 ∘ reduces_S1024x1000_S1024.lift (ix1 r)) = fun j : Fin 1000 => x0 (ix2 r j) :=
    funext fun k => congrArg x0 (lift_row _ r k)
  rw [hl]
  rfl

/-- An entry of the shifted block is the entry less its row's maximum. -/
theorem shiftedV_apply (x0 : Vec Ideal S1024x1000 .f32) (r : Fin 1024) (j : Fin 1000) :
    shiftedV x0 (ix2 r j) = x0 (ix2 r j) - Cert.Focal.rowMax (fun j => x0 (ix2 r j)) := by
  unfold shiftedV
  show x0 (ix2 r j) - broadcastTo S1024x1000 (rowMaxV x0) broadcasts_S1024x1_S1024x1000 (ix2 r j) = _
  rw [Cert.Lib.Columns.broadcastTo_a1_ab_apply, rowMaxV_apply]

/-- A row's entry of the normalisers column is log Σ_j exp (x j − max x) of the row. -/
theorem lseV_apply (x0 : Vec Ideal S1024x1000 .f32) (r : Fin 1024) (u : Fin 1) :
    lseV x0 (ix2 r u) = Cert.Focal.lse (fun j => x0 (ix2 r j)) := by
  unfold lseV
  show Ideal.log (shapeCast S1024x1 (multiReduction .add [1] S1024 (exp (shiftedV x0)) 0x00000000#32
      reduces_S1024x1000_S1024 (.inl rfl) rfl) shapeCasts_S1024_S1024x1 (ix2 r u)) = _
  unfold Cert.Focal.lse
  refine congrArg Ideal.log ?_
  refine (Cert.Lib.Columns.shapeCast_a_a1_apply _ _ r u).trans ?_
  refine (Ideal.multiReduction_add_single _ _ _ _ _ (ix1 r)).trans ?_
  refine Finset.sum_congr rfl fun (k : Fin 1000) _ => ?_
  refine (congrArg (exp (shiftedV x0)) (lift_row reduces_S1024x1000_S1024 r k)).trans ?_
  show Ideal.exp (shiftedV x0 (ix2 r k)) = _
  rw [shiftedV_apply]

/-- For a label in range the one-hot sum of a shifted row is its entry at the label's class. -/
theorem pickV_apply (x0 : Vec Ideal S1024x1000 .f32) (x1 : Vec Ideal S1024x1 .i32) (r : Fin 1024) (u : Fin 1)
    (ht : (x1 (ix2 r (0 : Fin 1)) : BitVec 32).toNat < 1000) :
    pickV x0 x1 (ix2 r u)
      = x0 (ix2 r (Cert.Focal.cls (x1 (ix2 r (0 : Fin 1))))) - Cert.Focal.rowMax (fun j => x0 (ix2 r j)) := by
  unfold pickV
  refine (Cert.Lib.Columns.shapeCast_a_a1_apply _ _ r u).trans ?_
  refine (Ideal.multiReduction_add_single _ _ _ _ _ (ix1 r)).trans ?_
  refine Eq.trans ?_ (Cert.Focal.onehot_sum (fun j => x0 (ix2 r j) - Cert.Focal.rowMax (fun j => x0 (ix2 r j))) (x1 (ix2 r (0 : Fin 1))) ht)
  refine Finset.sum_congr rfl fun (k : Fin 1000) _ => ?_
  refine (congrArg (select (cmpi .eq (iota .tc S1024x1000 32 [1] iota_S1024x1000_d1_w32)
        (broadcastTo S1024x1000 (shapeCast S1024x1 x1 shapeCasts_S1024x1_S1024x1) broadcasts_S1024x1_S1024x1000))
      (shiftedV x0) (broadcast S1024x1000 (Scalar.ofBits .f32 0x00000000#32))) (lift_row reduces_S1024x1000_S1024 r k)).trans ?_
  show Scalar.select (IntOp.cmpi .eq (iota .tc S1024x1000 32 [1] iota_S1024x1000_d1_w32 (ix2 r k))
      (broadcastTo S1024x1000 (shapeCast S1024x1 x1 shapeCasts_S1024x1_S1024x1) broadcasts_S1024x1_S1024x1000 (ix2 r k)))
    (shiftedV x0 (ix2 r k)) (Ideal.ofBits .f32 0x00000000#32) = _
  rw [iota_single_apply, Cert.Lib.Columns.broadcastTo_a1_ab_apply, shapeCast_self, shiftedV_apply, Ideal.ofBits_zero_f32,
    select_cmpi_eq]

/-- A row's entry of the loss column is the row's focal loss. -/
theorem lossV_apply (x0 : Vec Ideal S1024x1000 .f32) (x1 : Vec Ideal S1024x1 .i32) (r : Fin 1024) (u : Fin 1)
    (ht : (x1 (ix2 r (0 : Fin 1)) : BitVec 32).toNat < 1000) :
    lossV x0 x1 (ix2 r u) = Cert.Focal.rowLoss (fun j => x0 (ix2 r j)) (x1 (ix2 r (0 : Fin 1))) := by
  obtain rfl : u = 0 := Subsingleton.elim _ _
  have hlp : logptV x0 x1 (ix2 r 0) = Cert.Focal.logpt (fun j => x0 (ix2 r j)) (Cert.Focal.cls (x1 (ix2 r (0 : Fin 1)))) := by
    show pickV x0 x1 (ix2 r 0) - lseV x0 (ix2 r 0) = _
    rw [pickV_apply x0 x1 r 0 ht, lseV_apply]
    rfl
  unfold lossV Cert.Focal.rowLoss
  show (Ideal.ofBits .f32 0x00000000#32
        - (Ideal.ofBits .f32 0x3F800000#32 - Ideal.exp (logptV x0 x1 (ix2 r 0)))
          * (Ideal.ofBits .f32 0x3F800000#32 - Ideal.exp (logptV x0 x1 (ix2 r 0))))
      * (logptV x0 x1 (ix2 r 0)
          * Scalar.select (IntOp.cmpi .sgt (shapeCast S1024x1 x1 shapeCasts_S1024x1_S1024x1 (ix2 r 0)) 0#32)
              (Ideal.ofBits .f32 0x3E800000#32) (Ideal.ofBits .f32 0x3F400000#32)) = _
  rw [shapeCast_self, hlp]
  exact Cert.Focal.lossOf_eq_zero_sub _ _

/-- The accumulator update: the previous value plus the block's 1024 row losses, when every label of the block is a class
    number (then the one-hot comparison finds exactly the label's column). -/
theorem pay4_apply (x0 : Vec Ideal S1024x1000 .f32) (x1 : Vec Ideal S1024x1 .i32) (v37 : Vec Ideal S1x1 .f32)
    (ht : ∀ r : Fin 1024, (x1 (ix2 r (0 : Fin 1)) : BitVec 32).toNat < 1000) (y : S1x1.Idx) :
    k0_pay4 (F := Ideal) x0 x1 v37 y
      = v37 y + ∑ r : Fin 1024, Cert.Focal.rowLoss (fun j => x0 (ix2 r j)) (x1 (ix2 r (0 : Fin 1))) := by
  obtain ⟨a, b, rfl⟩ : ∃ a b, y = ix2 a b := ⟨y 0, y 1, eq_ix2 y⟩
  rw [pay4_eq]
  show v37 (ix2 a b) + shapeCast S1x1 (multiReduction .add [0] S1 (lossV x0 x1) 0x00000000#32 reduces_S1024x1_S1 (.inl rfl) rfl)
      shapeCasts_S1_S1x1 (ix2 a b) = _
  refine congrArg (v37 (ix2 a b) + ·) ?_
  refine (Cert.Lib.Columns.shapeCast_a_a1_apply _ _ a b).trans ?_
  refine (Ideal.multiReduction_add_single _ _ _ _ _ (ix1 a)).trans ?_
  refine Finset.sum_congr rfl fun (r : Fin 1024) _ => ?_
  exact (congrArg (lossV x0 x1) (lift_col reduces_S1024x1_S1 a r)).trans (lossV_apply x0 x1 r a (ht r))

end Cert.KernelIdeal.KV

end
-- ==== Proof.KBlocks.lean ====
/-
  The blocks the body loads, as entries of the argument arrays.

  The grid has 2 × 128 points in row-major order; point t loads rows 1024·t … 1024·t + 1023 of the logits and of the
  labels (the labels reach the region as a 262144 × 1 column, a reshape of the label vector).
-/
import proofs.«419402_j1743756722408_2_alg».proof.Proof.Gen.KernelIdeal.Frame
import Idealize.ShloMosaic.Lib.Pipeline.Value
import Idealize.ShloMosaic.Lib.ValueIdx
import Idealize.ShloMosaic.Lib.ValueIdxRank1
import Idealize.ShloMosaic.Lib.StableHlo.Run
import proofs.«419402_j1743756722408_2_alg».proof.Proof.LibColumns

noncomputable section

namespace Cert.KernelIdeal.KV

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The logits block of point `t`, at its literal type. -/
abbrev xblk (c : Dev nD) (t : Fin cfg0.N) : Vec F S1024x1000 .f32 := iblk m c 0 t
/-- The labels block of point `t`, at its literal type. -/
abbrev tblk (c : Dev nD) (t : Fin cfg0.N) : Vec F S1024x1 .i32 := iblk m c 1 t

/-- Row `r` of point `t`'s blocks is row 1024·t + r of the arrays. -/
def rowOf (t : Fin cfg0.N) (r : Fin 1024) : Fin 262144 :=
  ⟨1024 * t.val + r.val, by have := t.isLt; have hN : cfg0.N = 256 := N_0; have := r.isLt; omega⟩

/-- The logits window's block index at point t = 128·c + i of the 2 × 128 grid is (t, 0). -/
theorem logitsBlockIndex : ∀ t : Fin cfg0.N, win0_0.index t 0 = t.val ∧ win0_0.index t 1 = 0 :=
  (by decide +kernel : ∀ t : Fin grid0.N, win0_0.index t 0 = t.val ∧ win0_0.index t 1 = 0)

/-- The labels window's block index at point t is (t, 0) as well. -/
theorem labelsBlockIndex : ∀ t : Fin cfg0.N, win0_1.index t 0 = t.val ∧ win0_1.index t 1 = 0 :=
  (by decide +kernel : ∀ t : Fin grid0.N, win0_1.index t 0 = t.val ∧ win0_1.index t 1 = 0)

/-- The 262144 × 1 label column, as the region finds it, is the label vector reshaped. -/
theorem labelColumn_eq (c : Dev nD) :
    (V m c main_v0 : S262144x1.Idx → BitVec 32)
      = shapeCast S262144x1 (m ((c.tc : Thread nD τ).loc main_arg1)) shapeCasts_S262144_S262144x1 := by
  show StableHlo.after hostOps0 (fun b => m (c, b)) (Proc.devRef .tc main_v0) = _
  after_results
  rfl

/-- The logits block read at (r, j) is the logits array at (1024·t + r, j). -/
theorem xblk_apply (c : Dev nD) (t : Fin cfg0.N) (r : Fin 1024) (j : Fin 1000) :
    xblk m c t (ix2 r j) = (m ((c.tc : Thread nD τ).loc main_arg0) : S262144x1000.Idx → F .f32) (ix2 (rowOf t r) j) := by
  unfold xblk iblk
  rw [View.read_apply]
  show V m c main_arg0 (((cfg0.win 0).blk t).view.emb (ix2 r j)) = _
  rw [V_main_arg0]
  refine congrArg _ ?_
  funext a
  apply Fin.ext
  -- along each axis: block index × block extent + the coordinate inside the block
  match a with
  | ⟨0, _⟩ =>
    show win0_0.index t 0 * 1024 + 1 * r.val = 1024 * t.val + r.val
    rw [(logitsBlockIndex t).1]; omega
  | ⟨1, _⟩ =>
    show win0_0.index t 1 * 1000 + 1 * j.val = j.val
    rw [(logitsBlockIndex t).2]; omega

/-- The labels block read at (r, 0) is the label vector at 1024·t + r. -/
theorem tblk_apply (c : Dev nD) (t : Fin cfg0.N) (r : Fin 1024) :
    tblk m c t (ix2 r (0 : Fin 1)) = (m ((c.tc : Thread nD τ).loc main_arg1) : S262144.Idx → BitVec 32) (ix1 (rowOf t r)) := by
  unfold tblk iblk
  rw [View.read_apply]
  show V m c main_v0 (((cfg0.win 1).blk t).view.emb (ix2 r (0 : Fin 1))) = _
  rw [labelColumn_eq]
  -- the block's entry (r, 0) sits at (1024·t + r, 0) of the column, which the reshape reads at 1024·t + r of the vector
  refine Eq.trans (congrArg _ ?_)
    (Cert.Lib.Columns.shapeCast_a_a1_apply _ shapeCasts_S262144_S262144x1 (rowOf t r) (0 : Fin 1))
  funext a
  apply Fin.ext
  match a with
  | ⟨0, _⟩ =>
    show win0_1.index t 0 * 1024 + 1 * r.val = 1024 * t.val + r.val
    rw [(labelsBlockIndex t).1]; omega
  | ⟨1, _⟩ =>
    show win0_1.index t 1 * 1 + 1 * 0 = 0
    rw [(labelsBlockIndex t).2]

end Cert.KernelIdeal.KV

end
-- ==== Proof.KAcc.lean ====
/-
  What the kernel's output array holds after the run, over the extended reals.

  Within a core the accumulator after step i is ((0 + b₀) + b₁) + … + bᵢ of the blocks' sums; the core's last step
  writes it to the corner of the core's 8×128 output block, every other entry zero; the two blocks tile the 16×128 array.
-/
import proofs.«419402_j1743756722408_2_alg».proof.Proof.KPieces
import proofs.«419402_j1743756722408_2_alg».proof.Proof.KPayload
import proofs.«419402_j1743756722408_2_alg».proof.Proof.KBlocks

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The sum of the 1024 row losses of point `t`'s block. -/
def bsum (c : Dev nD) (t : Fin cfg0.N) : EReal :=
  ∑ r : Fin 1024, Cert.Focal.rowLoss (fun j => xblk m c t (ix2 r j)) (tblk m c t (ix2 r (0 : Fin 1)))

/-- The accumulator after point `n`: restarted from zero at each core's first point (n ≡ 0 mod 128). -/
def accAt (c : Dev nD) : (n : ℕ) → n < cfg0.N → EReal
  | 0, h => 0 + bsum m c ⟨0, h⟩
  | n + 1, h => (if (n + 1) % 128 = 0 then 0 else accAt c n (Nat.lt_of_succ_lt h)) + bsum m c ⟨n + 1, h⟩

/-- The labels of every block are class numbers. -/
def BlocksInRange (c : Dev nD) : Prop := ∀ (t : Fin cfg0.N) (r : Fin 1024), (tblk m c t (ix2 r (0 : Fin 1)) : BitVec 32).toNat < 1000

/-- A core's first point leaves zero plus the block's sum in the scratch. -/
theorem step_first (c : Dev nD) (hT : BlocksInRange m c) (t : Fin cfg0.N) (h0 : t.val % 128 = 0) (y : S1x1.Idx) :
    (outsAt0 m c t.val t.isLt).2 y = 0 + bsum m c t := by
  have h1 : ¬t.val % 128 = 127 := by omega
  rw [outsAt0_A m c t h0 h1]
  dsimp only
  refine (congrFun (sout_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (xblk m c t) (tblk m c t)) y).trans ?_
  rw [pay1_eq]
  refine (pay4_apply (xblk m c t) (tblk m c t) (k0_pay3 (F := Ideal)) (hT t) y).trans ?_
  rw [pay3_apply]
  rfl

/-- Any other point adds the block's sum to what the point before left. -/
theorem step_next (c : Dev nD) (hT : BlocksInRange m c) (t : Fin cfg0.N) (h0 : ¬t.val % 128 = 0) (y : S1x1.Idx) :
    (outsAt0 m c t.val t.isLt).2 y
      = (outsAt0 m c (t.val - 1) (Nat.lt_of_le_of_lt (Nat.sub_le _ _) t.isLt)).2 y + bsum m c t := by
  by_cases h1 : t.val % 128 = 127
  · rw [outsAt0_C m c t h0 h1]
    dsimp only
    refine (congrFun (sout_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (xblk m c t) (tblk m c t)
      (outsAt0 m c (t.val - 1) (Nat.lt_of_le_of_lt (Nat.sub_le _ _) t.isLt)).2) y).trans ?_
    rw [pay1_eq]
    exact pay4_apply (xblk m c t) (tblk m c t) _ (hT t) y
  · rw [outsAt0_B m c t h0 h1]
    dsimp only
    refine (congrFun (sout_B (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (xblk m c t) (tblk m c t)
      (outsAt0 m c (t.val - 1) (Nat.lt_of_le_of_lt (Nat.sub_le _ _) t.isLt)).2) y).trans ?_
    rw [pay1_eq]
    exact pay4_apply (xblk m c t) (tblk m c t) _ (hT t) y

/-- The carried scratch after point `n` is the accumulator. -/
theorem scratch_eq (c : Dev nD) (hT : BlocksInRange m c) (n : ℕ) (hn : n < cfg0.N) (y : S1x1.Idx) :
    (outsAt0 m c n hn).2 y = accAt m c n hn := by
  induction n generalizing y with
  | zero => exact step_first m c hT ⟨0, hn⟩ rfl y
  | succ n ih =>
    by_cases h0 : (n + 1) % 128 = 0
    · refine (step_first m c hT ⟨n + 1, hn⟩ h0 y).trans ?_
      show _ = (if (n + 1) % 128 = 0 then 0 else accAt m c n (Nat.lt_of_succ_lt hn)) + bsum m c ⟨n + 1, hn⟩
      rw [if_pos h0]
    · refine (step_next m c hT ⟨n + 1, hn⟩ h0 y).trans ?_
      show (outsAt0 m c n (Nat.lt_of_succ_lt hn)).2 y + bsum m c ⟨n + 1, hn⟩
        = (if (n + 1) % 128 = 0 then 0 else accAt m c n (Nat.lt_of_succ_lt hn)) + bsum m c ⟨n + 1, hn⟩
      rw [if_neg h0, ih]

/-- What the output array holds at the end: core k's total at entry (8k, 0), zero elsewhere. -/
def outArr (c : Dev nD) : S16x128.Idx → EReal := fun i =>
  if (i 0).val % 8 = 0 ∧ (i 1).val = 0 then
    accAt m c (128 * ((i 0).val / 8) + 127) (by have hN : cfg0.N = 256 := N_0; have := (i 0).isLt; show _ < cfg0.N; rw [hN]; have : (i 0).val < 16 := (i 0).isLt; omega)
  else 0

theorem accAt_congr (c : Dev nD) {n n' : ℕ} (e : n = n') (h : n < cfg0.N) (h' : n' < cfg0.N) :
    accAt m c n h = accAt m c n' h' := by
  subst e; rfl

/-- The output array at row 8k + p and column q: core k's total at p = 0 and q = 0, zero elsewhere. -/
theorem outArr_apply (c : Dev nD) (i : S16x128.Idx) (k p q : ℕ) (hp : p < 8) (hi0 : (i 0).val = 8 * k + p) (hi1 : (i 1).val = q)
    (hk : 128 * k + 127 < cfg0.N) :
    outArr m c i = if p = 0 ∧ q = 0 then accAt m c (128 * k + 127) hk else 0 := by
  unfold outArr
  by_cases hc : p = 0 ∧ q = 0
  · rw [if_pos hc, if_pos ⟨by omega, by omega⟩]
    exact accAt_congr m c (by omega) _ _
  · rw [if_neg hc, if_neg (fun h => hc ⟨by omega, by omega⟩)]

/-- The block index of the output window at point t: (t / 128, 0). -/
theorem index0_2 : ∀ t : Fin cfg0.N, win0_2.index t 0 = t.val / 128 ∧ win0_2.index t 1 = 0 :=
  (by decide +kernel : ∀ t : Fin grid0.N, win0_2.index t 0 = t.val / 128 ∧ win0_2.index t 1 = 0)

/-- At a core's last point the output block holds the accumulator at its corner, zero elsewhere. -/
theorem outBlk_apply (c : Dev nD) (hT : BlocksInRange m c) (t : Fin cfg0.N) (h0 : ¬t.val % 128 = 0) (h1 : t.val % 128 = 127)
    (p : Fin 8) (q : Fin 128) :
    (outsAt0 m c t.val t.isLt).1 (ix2 p q) = if p.val = 0 ∧ q.val = 0 then accAt m c t.val t.isLt else 0 := by
  have hs : (outsAt0 m c t.val t.isLt).2
      = k0_pay1 (k0_pay4 (xblk m c t) (tblk m c t) (outsAt0 m c (t.val - 1) (Nat.lt_of_le_of_lt (Nat.sub_le _ _) t.isLt)).2) := by
    rw [outsAt0_C m c t h0 h1]
    dsimp only
    exact sout_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (xblk m c t) (tblk m c t)
      (outsAt0 m c (t.val - 1) (Nat.lt_of_le_of_lt (Nat.sub_le _ _) t.isLt)).2
  have ha := scratch_eq m c hT t.val t.isLt (ix2 (0 : Fin 1) (0 : Fin 1))
  rw [hs] at ha
  rw [outsAt0_C m c t h0 h1]
  dsimp only
  refine (congrFun (out_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (xblk m c t) (tblk m c t)
      (outsAt0 m c (t.val - 1) (Nat.lt_of_le_of_lt (Nat.sub_le _ _) t.isLt)).2) (ix2 p q)).trans ?_
  refine (pay2_apply _ p q).trans ?_
  rw [ha]

/-- What a writing point writes back is its block of the final array. -/
theorem flushed_eq (c : Dev nD) (hT : BlocksInRange m c) (t : Fin cfg0.N) (hf : (cfg0.win 2).flush t = true) :
    (dats m 0 c).flushed 2 t = ((cfg0.win 2).blk t).view.read (Elt Ideal) (outArr m c) := by
  have hN : cfg0.N = 256 := N_0
  have ht : t.val < 256 := lt_of_lt_of_eq t.isLt hN
  have h1 : t.val % 128 = 127 := (flush0_2 t).mp hf
  have h0 : ¬t.val % 128 = 0 := by omega
  show (cfg0.win 2).cut (grid0.coords t) ((dats m 0 c).after 2 t) = _
  rw [after0_2]
  funext y
  obtain ⟨p, q, rfl⟩ : ∃ (p : Fin 8) (q : Fin 128), y = ix2 p q := ⟨y 0, y 1, eq_ix2 y⟩
  refine (outBlk_apply m c hT t h0 h1 p q).trans ?_
  rw [View.read_apply]
  show _ = outArr m c (((cfg0.win 2).blk t).view.emb (ix2 p q))
  have e0 : ((((cfg0.win 2).blk t).view.emb (ix2 p q) : S16x128.Idx) 0).val = win0_2.index t 0 * 8 + 1 * p.val := rfl
  have e1 : ((((cfg0.win 2).blk t).view.emb (ix2 p q) : S16x128.Idx) 1).val = win0_2.index t 1 * 128 + 1 * q.val := rfl
  rw [(index0_2 t).1] at e0
  rw [(index0_2 t).2] at e1
  rw [outArr_apply m c _ (t.val / 128) p.val q.val p.isLt (by rw [e0]; omega) (by rw [e1]; omega)
    (lt_of_lt_of_eq (by omega : 128 * (t.val / 128) + 127 < 256) hN.symm)]
  by_cases hc : p.val = 0 ∧ q.val = 0
  · rw [if_pos hc, if_pos hc]
    exact accAt_congr m c (by omega) _ _
  · rw [if_neg hc, if_neg hc]

/-- Every entry of the output array lies in the block its core's last point writes back. -/
theorem cover2 (i : S16x128.Idx) : ∃ t : Fin cfg0.N, (cfg0.win 2).flush t = true ∧ i ∈ ((cfg0.win 2).blk t).view.set := by
  have hN : cfg0.N = 256 := N_0
  have hi0 : (i 0 : ℕ) < 16 := (i 0).isLt
  have hi1 : (i 1 : ℕ) < 128 := (i 1).isLt
  have hlt : 128 * ((i 0 : ℕ) / 8) + 127 < cfg0.N := by rw [hN]; omega
  refine ⟨⟨128 * ((i 0 : ℕ) / 8) + 127, hlt⟩, (flush0_2 _).mpr (by show (128 * ((i 0 : ℕ) / 8) + 127) % 128 = 127; omega), ?_⟩
  show i ∈ ((View.whole main_v1).slice (win0_2.rect ⟨128 * ((i 0 : ℕ) / 8) + 127, hlt⟩)).set
  rw [View.set_slice_whole, Rect.mem_set_unit]
  intro a
  match a with
  | ⟨0, _⟩ =>
    show win0_2.index ⟨128 * ((i 0 : ℕ) / 8) + 127, hlt⟩ 0 * 8 ≤ (i 0 : ℕ)
      ∧ (i 0 : ℕ) < win0_2.index ⟨128 * ((i 0 : ℕ) / 8) + 127, hlt⟩ 0 * 8 + 8
    rw [(index0_2 ⟨128 * ((i 0 : ℕ) / 8) + 127, hlt⟩).1]
    show (128 * ((i 0 : ℕ) / 8) + 127) / 128 * 8 ≤ (i 0 : ℕ) ∧ (i 0 : ℕ) < (128 * ((i 0 : ℕ) / 8) + 127) / 128 * 8 + 8
    omega
  | ⟨1, _⟩ =>
    show win0_2.index ⟨128 * ((i 0 : ℕ) / 8) + 127, hlt⟩ 1 * 128 ≤ (i 1 : ℕ)
      ∧ (i 1 : ℕ) < win0_2.index ⟨128 * ((i 0 : ℕ) / 8) + 127, hlt⟩ 1 * 128 + 128
    rw [(index0_2 ⟨128 * ((i 0 : ℕ) / 8) + 127, hlt⟩).2]
    omega

/-- The output array after the run. -/
theorem final2 (c : Dev nD) (hT : BlocksInRange m c) : (dats m 0 c).arrAt 2 cfg0.N = outArr m c :=
  (dats m 0 c).arrAt_eq_of_cover 2 (outArr m c) (flushed_eq m c hT) cover2

end Cert.KernelIdeal.KV

end
-- ==== Proof.KResult.lean ====
/-
  The kernel's result over the extended reals: the batch's mean focal loss.

  After the region the host sums the 16×128 output array from zero and divides by 262144. The array holds core k's
  total at (8k, 0) and zero elsewhere, so the sum is the two cores' totals; a core's total is the sum of its 128 blocks'
  sums, a block's sum the sum of its 1024 rows' losses, and block t's row r is row 1024·t + r of the batch: the sum
  over the cores, their blocks and the blocks' rows is the sum over the batch's 262144 rows.
-/
import proofs.«419402_j1743756722408_2_alg».proof.Proof.KAcc

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

/-! ## Sums over consecutive blocks of a range -/

/-- A sum over `T` consecutive blocks of `n` terms is the sum over the first `n · T` terms. -/
theorem sum_blocks (f : ℕ → EReal) (n : ℕ) : ∀ T : ℕ,
    ∑ t ∈ Finset.range T, ∑ r ∈ Finset.range n, f (n * t + r) = ∑ R ∈ Finset.range (n * T), f R
  | 0 => by simp
  | T + 1 => by rw [Finset.sum_range_succ, sum_blocks f n T, Nat.mul_succ, Finset.sum_range_add]

variable (m : (ℓ : Loc nD τ sig) → Buf (Elt Ideal) ℓ) (ρ : Dev nD → PrngReg)

/-- The logits and the labels as launched. -/
abbrev argX (c : Dev nD) : S262144x1000.Idx → EReal := m ((c.tc : Thread nD τ).loc main_arg0)
abbrev argT (c : Dev nD) : S262144.Idx → BitVec 32 := m ((c.tc : Thread nD τ).loc main_arg1)

/-- Row `R` of the batch: its loss. -/
def gRow (c : Dev nD) (R : Fin 262144) : EReal :=
  Cert.Focal.rowLoss (fun j => argX m c (ix2 R j)) (argT m c (ix1 R))

/-- The same by the row's number, zero past the batch. -/
def gN (c : Dev nD) (R : ℕ) : EReal := if h : R < 262144 then gRow m c ⟨R, h⟩ else 0

/-- A block's sum by the point's number, zero past the grid. -/
def bsumN (c : Dev nD) (t : ℕ) : EReal := if h : t < cfg0.N then bsum m c ⟨t, h⟩ else 0

/-- Block `t`'s sum is the sum of the losses of rows 1024·t … 1024·t + 1023 of the batch. -/
theorem bsumN_eq (c : Dev nD) (t : ℕ) (ht : t < 256) :
    bsumN m c t = ∑ r ∈ Finset.range 1024, gN m c (1024 * t + r) := by
  have hN : cfg0.N = 256 := N_0
  have ht' : t < cfg0.N := by rw [hN]; exact ht
  unfold bsumN
  rw [dif_pos ht', Finset.sum_range]
  unfold bsum
  refine Finset.sum_congr rfl fun r _ => ?_
  have hR : 1024 * t + r.val < 262144 := by have := r.isLt; omega
  unfold gN
  rw [dif_pos hR]
  unfold gRow
  have hrow : (⟨1024 * t + r.val, hR⟩ : Fin 262144) = rowOf ⟨t, ht'⟩ r := rfl
  rw [hrow]
  congr 1
  · funext j; exact xblk_apply m c ⟨t, ht'⟩ r j
  · exact tblk_apply m c ⟨t, ht'⟩ r

/-- The accumulator after point `n` is the sum of the blocks' sums from the core's first point to `n`. -/
theorem accAt_eq (c : Dev nD) : ∀ (n : ℕ) (hn : n < cfg0.N),
    accAt m c n hn = ∑ j ∈ Finset.range (n % 128 + 1), bsumN m c (n - n % 128 + j)
  | 0, hn => by
    show 0 + bsum m c ⟨0, hn⟩ = _
    rw [zero_add]
    simp only [Nat.zero_mod, Nat.sub_self, Finset.sum_range_one, Nat.add_zero, zero_add]
    unfold bsumN; rw [dif_pos hn]
  | n + 1, hn => by
    show (if (n + 1) % 128 = 0 then 0 else accAt m c n (Nat.lt_of_succ_lt hn)) + bsum m c ⟨n + 1, hn⟩ = _
    have hb : bsum m c ⟨n + 1, hn⟩ = bsumN m c (n + 1) := by unfold bsumN; rw [dif_pos hn]
    by_cases h0 : (n + 1) % 128 = 0
    · rw [if_pos h0, zero_add, h0, hb]
      simp only [Nat.zero_add, Finset.sum_range_one, Nat.sub_zero, Nat.add_zero]
    · rw [if_neg h0, accAt_eq c n (Nat.lt_of_succ_lt hn), hb]
      have e1 : (n + 1) % 128 = n % 128 + 1 := by omega
      have e2 : n + 1 - (n + 1) % 128 = n - n % 128 := by omega
      have e3 : n - n % 128 + (n % 128 + 1) = n + 1 := by omega
      rw [e2, e1, Finset.sum_range_succ (fun j => bsumN m c (n - n % 128 + j)) (n % 128 + 1), e3]

/-- Core `k`'s total: its 128 blocks' sums. -/
def coreN (c : Dev nD) (k : ℕ) : EReal := ∑ j ∈ Finset.range 128, bsumN m c (128 * k + j)

/-- The output array at (a, b): core a / 8's total at the corner of its block, zero elsewhere. -/
theorem outArr_corner (c : Dev nD) (a : Fin 16) (b : Fin 128) :
    outArr m c (ix2 a b) = if a.val % 8 = 0 ∧ b.val = 0 then coreN m c (a.val / 8) else 0 := by
  unfold outArr
  show (if a.val % 8 = 0 ∧ b.val = 0 then accAt m c (128 * (a.val / 8) + 127) _ else 0) = _
  by_cases h : a.val % 8 = 0 ∧ b.val = 0
  · rw [if_pos h, if_pos h, accAt_eq]
    unfold coreN
    have e1 : (128 * (a.val / 8) + 127) % 128 + 1 = 128 := by omega
    have e2 : 128 * (a.val / 8) + 127 - (128 * (a.val / 8) + 127) % 128 = 128 * (a.val / 8) := by omega
    rw [e1, e2]
  · rw [if_neg h, if_neg h]

/-- The output array's entries sum to the sum of all 256 blocks' sums. -/
theorem sum_outArr (c : Dev nD) : ∑ i : S16x128.Idx, outArr m c i = ∑ t ∈ Finset.range 256, bsumN m c t := by
  rw [sum_idx2]
  have inner : ∀ a : Fin 16, ∑ b : Fin 128, outArr m c (ix2 a b) = if a.val % 8 = 0 then coreN m c (a.val / 8) else 0 := by
    intro a
    rw [Finset.sum_eq_single (0 : Fin 128)]
    · rw [outArr_corner]; simp
    · intro b _ hb
      rw [outArr_corner, if_neg]
      rintro ⟨_, h⟩
      exact hb (Fin.ext h)
    · intro h; exact absurd (Finset.mem_univ _) h
  rw [Finset.sum_congr rfl fun a _ => inner a]
  rw [← Finset.sum_range (fun a => if a % 8 = 0 then coreN m c (a / 8) else 0)]
  have h16 : ∑ a ∈ Finset.range 16, (if a % 8 = 0 then coreN m c (a / 8) else 0) = coreN m c 0 + coreN m c 1 := by
    simp only [Finset.sum_range_succ, Finset.sum_range_zero]
    norm_num
  rw [h16]
  unfold coreN
  rw [show (256 : ℕ) = 128 + 128 from rfl, Finset.sum_range_add]
  simp only [Nat.mul_zero, Nat.zero_add, Nat.mul_one]

/-- So they sum to the sum of the batch's 262144 row losses. -/
theorem sum_outArr_rows (c : Dev nD) : ∑ i : S16x128.Idx, outArr m c i = ∑ R : Fin 262144, gRow m c R := by
  rw [sum_outArr, Finset.sum_congr rfl fun t ht => bsumN_eq m c t (Finset.mem_range.mp ht), sum_blocks (gN m c) 1024 256,
    show 1024 * 256 = 262144 from rfl, Finset.sum_range]
  refine Finset.sum_congr rfl fun R _ => ?_
  unfold gN
  rw [dif_pos R.isLt]

/-! ## The host's lines after the region, and the run -/

/-- The host's lines after the region: the result is the output array summed from zero, divided by 262144. -/
theorem tail_eq (c : Dev nD) :
    Pipeline.afterTail₀ cfgs (dats m) 0 (V0 m) [hostOps1] c main_v3
      = Host.divf (Host.reduceAdd ((dats m 0 c).arrAt 2 cfg0.N) (constant (F := Ideal) S_ .f32 0x00000000#32) reducesTo_S16x128_S_d0_1 h_S_)
          (constant (F := Ideal) S_ .f32 0x48800000#32) := by
  unfold Pipeline.afterTail₀
  show StableHlo.after hostOps1 _ (Proc.devRef .tc main_v3) = _
  after_results
  exact congrArg (fun a => Host.divf (Host.reduceAdd a (constant (F := Ideal) S_ .f32 0x00000000#32) reducesTo_S16x128_S_d0_1 h_S_)
      (constant (F := Ideal) S_ .f32 0x48800000#32))
    (Pipeline.withArrays_arr spec0 launch0.win.arr_inj c (V0 m c) (fun w => (dats m 0 c).arrAt w cfg0.N) 2)

/-- The labels of every block are class numbers when the label vector's are. -/
theorem blocksInRange (c : Dev nD) (hT : Cert.Focal.LabelsInRange (argT m c)) : BlocksInRange m c := by
  intro t r
  rw [tblk_apply]
  exact hT _

/-- The kernel's result is the mean focal loss of the batch, when the labels are class numbers. -/
theorem result_eq (c : Dev nD) (hT : Cert.Focal.LabelsInRange (argT m c)) :
    Pipeline.afterTail₀ cfgs (dats m) 0 (V0 m) [hostOps1] c main_v3 = fun _ => Cert.Focal.total (argX m c) (argT m c) := by
  rw [tail_eq, final2 m c (blocksInRange m c hT)]
  funext i
  show Ideal.div (Ideal.hostReduceAdd reducesTo_S16x128_S_d0_1 (outArr m c) (Ideal.ofBits .f32 0x00000000#32) i) (Ideal.ofBits .f32 0x48800000#32) = _
  rw [Ideal.hostReduceAdd_total reducesTo_S16x128_S_d0_1 (fun b => b.elim0) (outArr m c) _ i, sum_outArr_rows]
  rfl

/-- The run, read: the result at the mean focal loss, the arguments unchanged. -/
theorem run (hT : ∀ c : Dev nD, Cert.Focal.LabelsInRange (argT m c)) :
    θ_run defs (onTc (τ := τ) (main (F := Ideal))) ⟨m, fun _ => 0, ρ⟩ fun r => ∀ c : Dev nD,
      r.2.mem ((c.tc : Thread nD τ).loc main_v3) = (fun _ => Cert.Focal.total (argX m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c (hT c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KV

end
-- ==== Proof.PreDecode.lean ====
/-
  What the precondition says of the arguments: every logit is a real number (|x| < +∞ on the extended reals) and
  every label is a class number (0 ≤ t < 1000 as signed words, so its value as a natural number is below 1000).
-/
import proofs.«419402_j1743756722408_2_alg».proof.Pre_finite_inputs
import proofs.«419402_j1743756722408_2_alg».proof.Proof.Gen.Pre_finite_inputs
import proofs.«419402_j1743756722408_2_alg».proof.Proof.Spec
import Idealize.ShloMosaic.Lib.ReduceAll
import Idealize.ShloMosaic.Lib.ValueIdx
import Idealize.ShloMosaic.Lib.ValueIdxRank1
import Idealize.ShloMosaic.Lib.StableHlo.Predicate
import Idealize.ShloMosaic.PureOps.Ideal.Laws

noncomputable section

namespace Cert.Pre_finite_inputs.Decode

open Idealize.ShloMosaic Idealize.ShloMosaic.ValueIdx
open Cert.Pre_finite_inputs

/-- The word 0x7F800000 denotes +∞. -/
theorem inf_eq_top : Ideal.ofBits .f32 0x7F800000#32 = (⊤ : EReal) := by
  simp [Ideal.ofBits, Ideal.ieee]

/-- An extended real whose absolute value max x (−x) lies strictly below +∞ is a real number. -/
theorem real_of_abs_lt_top (x : EReal) (hx : max x (-x) < ⊤) : ∃ a : ℝ, x = (a : EReal) := by
  induction x using EReal.rec with
  | bot => simp at hx
  | coe a => exact ⟨a, rfl⟩
  | top => simp at hx

/-- A 32-bit word that is non-negative and below 1000 as a signed number is below 1000 as a natural number. -/
theorem toNat_lt_of_signed (t : BitVec 32) (h0 : IntOp.cmpi .sge t 0#32 = 1#1) (h1 : IntOp.cmpi .slt t 1000#32 = 1#1) :
    t.toNat < 1000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (1000#32 : BitVec 32).toInt = 1000 := by decide
  rw [e0] at h0
  rw [e1] at h1
  have := BitVec.toInt_eq_toNat_cond t
  have hlt := t.isLt
  split at this <;> omega

/-- The precondition, all ones, gives real logits and labels in range. -/
theorem of_pre (X : FVec Ideal S262144x1000 .f32) (T : IVec S262144 32)
    (h : Cert.Pre_finite_inputs.fn (F := Ideal) X T = fun _ => 1#1) :
    Cert.Focal.FiniteX X ∧ Cert.Focal.LabelsInRange T := by
  haveI : Subsingleton S_.Idx := ⟨fun a b => funext fun d => d.elim0⟩
  have h0 := congrFun h ValueIdx.ix0
  dsimp only [Cert.Pre_finite_inputs.fn] at h0
  obtain ⟨hX, hT⟩ := IntOp.andi_eq_one.1 h0
  constructor
  · intro i
    have hi := Host.reduce_andi_all _ _ _ _ _ hX i
    have hi' : Ideal.cmp .olt (max (X i) (-(X i))) (Ideal.ofBits .f32 0x7F800000#32) = 1#1 := hi
    rw [inf_eq_top] at hi'
    have hlt : max (X i) (-(X i)) < ⊤ := of_decide_eq_true ((StableHlo.Predicate.ofBool_eq_one_iff _).1 hi')
    exact real_of_abs_lt_top _ hlt
  · intro i
    have hi := Host.reduce_andi_all _ _ _ _ _ hT i
    have hi' : IntOp.andi (IntOp.cmpi .sge (T i) 0#32) (IntOp.cmpi .slt (T i) 1000#32) = 1#1 := hi
    obtain ⟨hge, hlt⟩ := IntOp.andi_eq_one.1 hi'
    exact toNat_lt_of_signed _ hge hlt

end Cert.Pre_finite_inputs.Decode

end
-- ==== Proof.lean ====
/-
  The certificate: a focal-loss kernel (log-softmax of 1000 classes, the label's log-probability picked by a one-hot
  sum, −(1 − pt)² · (logpt · w) per row, summed block by block into a per-core accumulator and by the host over the two
  cores, divided by the batch size 262144) against its reference (log-softmax, the label's entry gathered,
  −(1 − pt)^2.0 · (logpt · w), one sum over the batch, the same division), over the extended reals.

  The precondition: every logit finite, every label a class number 0 … 999. Outside that range the two programs differ
  (the reference wraps a negative label and fills a too-large one; the one-hot sum finds no column), so the range is part
  of the statement. Under it both results are `Cert.Focal.total` of the arguments:
    * the kernel's, by reading the generated frame run: each control case's stores as values, the accumulator by
      induction over the grid's points, the output array by its two write-backs, the host's sum and division after the
      region, and the regrouping of the 2 · 128 · 1024 row losses into one sum over the batch;
    * the reference's, stage by stage: the row maximum and the sums as folds, the gather at a label in range, and the
      power 2.0 of 1 − pt as its square, which needs 1 − pt ≠ −∞ and hence the logits finite.
  The frames of the two kernel programs are the generated ones; the reference's frame is its run with the result dropped;
  the idealization rewrote nothing, so `preserves` is trivial.
-/
import proofs.«419402_j1743756722408_2_alg».proof.Defs
import proofs.«419402_j1743756722408_2_alg».proof.Proof.Gen.Kernel
import proofs.«419402_j1743756722408_2_alg».proof.Proof.Gen.Kernel.Frame
import proofs.«419402_j1743756722408_2_alg».proof.Proof.Gen.KernelIdeal
import proofs.«419402_j1743756722408_2_alg».proof.Proof.Gen.KernelIdeal.Frame
import proofs.«419402_j1743756722408_2_alg».proof.Proof.Gen.ReferenceIdeal
import proofs.«419402_j1743756722408_2_alg».proof.Proof.Gen.Pre_finite_inputs
import proofs.«419402_j1743756722408_2_alg».proof.Proof.RefStages
import proofs.«419402_j1743756722408_2_alg».proof.Proof.RefRun
import proofs.«419402_j1743756722408_2_alg».proof.Proof.RefValue
import proofs.«419402_j1743756722408_2_alg».proof.Proof.KResult
import proofs.«419402_j1743756722408_2_alg».proof.Proof.PreDecode
import Idealize.ShloMosaic.Adequacy
import Idealize.ShloMosaic.Init

noncomputable section

namespace Cert.Proof

open Idealize.ShloMosaic Idealize.SL.Sem

/-- Both idealized programs, run from memories that agree on the arguments, end with the mean focal loss of the batch. -/
theorem algebraic : Cert.algebraic_KernelIdeal_ReferenceIdeal := by
  intro m ρ m' ρ' hpre hagree
  have hdec := fun c : Dev Cert.KernelIdeal.nD => Cert.Pre_finite_inputs.Decode.of_pre _ _ (hpre c)
  refine ⟨fun c _ => Cert.Focal.total (Cert.KernelIdeal.KV.argX m c) (Cert.KernelIdeal.KV.argT m c),
    Cert.KernelIdeal.KV.run m ρ (fun c => (hdec c).2), ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact Cert.ReferenceIdeal.RefValue.result_eq _ _ (hdec c).1 (hdec c).2

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.ValueP.run (F := Ideal) m ρ),
    trivial,
    algebraic⟩

end Cert.Proof

end
